-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1171456x128 : Shape := ⟨2, ![1171456, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1126400 : Shape := ⟨1, ![1126400]⟩
abbrev S40960 : Shape := ⟨1, ![40960]⟩
abbrev S_ : Shape := ⟨0, ![]⟩

class Facts : Prop where
  bcast_S_S1171456x128 : S_.BroadcastsInDim S1171456x128 (![] : Fin 0 → Fin S1171456x128.rank)
  reducesTo_S1171456x128_S_d0_1 : S1171456x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1171456x128 .f32) (main_arg1 : FVec F S128x256 .f32) (main_arg2 : FVec F S128x256 .f32) (main_arg3 : FVec F S256 .f32) (main_arg4 : FVec F S256x64 .f32) (main_arg5 : FVec F S256x64 .f32) (main_arg6 : FVec F S64 .f32) (main_arg7 : IVec S1126400 32) (main_arg8 : IVec S1126400 32) (main_arg9 : IVec S40960 32) (main_arg10 : IVec S40960 32) : IVec S_ 1 :=
  let main_v0 : FVec F S1171456x128 .f32 := Host.absf main_arg0
  let main_cst : FVec F S_ .f32 := constant S_ .f32 0x7F800000#32
  let main_v1 : FVec F S1171456x128 .f32 := broadcastInDim S1171456x128 ![] bcast_S_S1171456x128 main_cst
  let main_v2 : IVec S1171456x128 1 := cmpf .olt main_v0 main_v1
  let main_c : IVec S_ 1 := constantI S_ 1 1#1
  let main_v3 : IVec S_ 1 := (fun x v => Host.reduce IntOp.andi x v reducesTo_S1171456x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S1171456x128 : Shape := ⟨2, ![1171456, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1126400 : Shape := ⟨1, ![1126400]⟩
abbrev S40960 : Shape := ⟨1, ![40960]⟩
abbrev S_ : Shape := ⟨0, ![]⟩
abbrev S1126400x1 : Shape := ⟨2, ![1126400, 1]⟩
abbrev S1126400x128 : Shape := ⟨2, ![1126400, 128]⟩
abbrev S45056x128 : Shape := ⟨2, ![45056, 128]⟩
abbrev S45056 : Shape := ⟨1, ![45056]⟩
abbrev S45056x1 : Shape := ⟨2, ![45056, 1]⟩
abbrev S1x256 : Shape := ⟨2, ![1, 256]⟩
abbrev S45056x256 : Shape := ⟨2, ![45056, 256]⟩
abbrev S2048x128 : Shape := ⟨2, ![2048, 128]⟩
abbrev S2048x256 : Shape := ⟨2, ![2048, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩

abbrev nBuf : Space → Nat
  | .hbm => 67
  | .vmem => 18
  | .smem => 0
  | _ => 0

abbrev bufTy : (tb : Table) → Fin (tcTables nBuf tb) → BufTy
  | .hbm, ⟨0, _⟩ => ⟨S1171456x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S256x64, .f32⟩
  | .hbm, ⟨6, _⟩ => ⟨S64, .f32⟩
  | .hbm, ⟨7, _⟩ => ⟨S1126400, .i32⟩
  | .hbm, ⟨8, _⟩ => ⟨S1126400, .i32⟩
  | .hbm, ⟨9, _⟩ => ⟨S40960, .i32⟩
  | .hbm, ⟨10, _⟩ => ⟨S40960, .i32⟩
  | .hbm, ⟨11, _⟩ => ⟨S_, .i32⟩
  | .hbm, ⟨12, _⟩ => ⟨S1126400, .i32⟩
  | .hbm, ⟨13, _⟩ => ⟨S1126400, .i1⟩
  | .hbm, ⟨14, _⟩ => ⟨S_, .i32⟩
  | .hbm, ⟨15, _⟩ => ⟨S1126400, .i32⟩
  | .hbm, ⟨16, _⟩ => ⟨S1126400, .i32⟩
  | .hbm, ⟨17, _⟩ => ⟨S1126400, .i32⟩
  | .hbm, ⟨18, _⟩ => ⟨S1126400x1, .i32⟩
  | .hbm, ⟨19, _⟩ => ⟨S1126400x128, .f32⟩
  | .hbm, ⟨20, _⟩ => ⟨S_, .f32⟩
  | .hbm, ⟨21, _⟩ => ⟨S45056x128, .f32⟩
  | .hbm, ⟨22, _⟩ => ⟨S1126400x1, .i32⟩
  | .hbm, ⟨23, _⟩ => ⟨S45056x128, .f32⟩
  | .hbm, ⟨24, _⟩ => ⟨S_, .f32⟩
  | .hbm, ⟨25, _⟩ => ⟨S1126400, .f32⟩
  | .hbm, ⟨26, _⟩ => ⟨S_, .f32⟩
  | .hbm, ⟨27, _⟩ => ⟨S45056, .f32⟩
  | .hbm, ⟨28, _⟩ => ⟨S1126400x1, .i32⟩
  | .hbm, ⟨29, _⟩ => ⟨S45056, .f32⟩
  | .hbm, ⟨30, _⟩ => ⟨S_, .f32⟩
  | .hbm, ⟨31, _⟩ => ⟨S45056, .f32⟩
  | .hbm, ⟨32, _⟩ => ⟨S45056, .f32⟩
  | .hbm, ⟨33, _⟩ => ⟨S45056x1, .f32⟩
  | .hbm, ⟨34, _⟩ => ⟨S45056x128, .f32⟩
  | .hbm, ⟨35, _⟩ => ⟨S45056x128, .f32⟩
  | .hbm, ⟨36, _⟩ => ⟨S45056x128, .f32⟩
  | .hbm, ⟨37, _⟩ => ⟨S1x256, .f32⟩
  | .hbm, ⟨38, _⟩ => ⟨S45056x256, .f32⟩
  | .hbm, ⟨39, _⟩ => ⟨S_, .i32⟩
  | .hbm, ⟨40, _⟩ => ⟨S40960, .i32⟩
  | .hbm, ⟨41, _⟩ => ⟨S40960, .i1⟩
  | .hbm, ⟨42, _⟩ => ⟨S_, .i32⟩
  | .hbm, ⟨43, _⟩ => ⟨S40960, .i32⟩
  | .hbm, ⟨44, _⟩ => ⟨S40960, .i32⟩
  | .hbm, ⟨45, _⟩ => ⟨S40960, .i32⟩
  | .hbm, ⟨46, _⟩ => ⟨S40960x1, .i32⟩
  | .hbm, ⟨47, _⟩ => ⟨S40960x256, .f32⟩
  | .hbm, ⟨48, _⟩ => ⟨S_, .f32⟩
  | .hbm, ⟨49, _⟩ => ⟨S4096x256, .f32⟩
  | .hbm, ⟨50, _⟩ => ⟨S40960x1, .i32⟩
  | .hbm, ⟨51, _⟩ => ⟨S4096x256, .f32⟩
  | .hbm, ⟨52, _⟩ => ⟨S_, .f32⟩
  | .hbm, ⟨53, _⟩ => ⟨S40960, .f32⟩
  | .hbm, ⟨54, _⟩ => ⟨S_, .f32⟩
  | .hbm, ⟨55, _⟩ => ⟨S4096, .f32⟩
  | .hbm, ⟨56, _⟩ => ⟨S40960x1, .i32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S1x64, .f32⟩
  | .hbm, ⟨66, _⟩ => ⟨S4096x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S256x64, .f32⟩
  | .local _ .vmem, ⟨14, _⟩ => ⟨S256x64, .f32⟩
  | .local _ .vmem, ⟨15, _⟩ => ⟨S1x64, .f32⟩
  | .local _ .vmem, ⟨16, _⟩ => ⟨S1024x64, .f32⟩
  | .local _ .vmem, ⟨17, _⟩ => ⟨S1024x64, .f32⟩
  | _, _ => ⟨S1171456x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1126400 : S_.BroadcastsInDim S1126400 (![] : Fin 0 → Fin S1126400.rank)
  bcast_S1126400_S1126400x1_0 : S1126400.BroadcastsInDim S1126400x1 (![0] : Fin 1 → Fin S1126400x1.rank)
  bcast_S_S45056x128 : S_.BroadcastsInDim S45056x128 (![] : Fin 0 → Fin S45056x128.rank)
  bcast_S_S45056 : S_.BroadcastsInDim S45056 (![] : Fin 0 → Fin S45056.rank)
  bcast_S45056_S45056x1_0 : S45056.BroadcastsInDim S45056x1 (![0] : Fin 1 → Fin S45056x1.rank)
  bcast_S45056x1_S45056x128_0_1 : S45056x1.BroadcastsInDim S45056x128 (![0, 1] : Fin 2 → Fin S45056x128.rank)
  slices_S1171456x128_S45056x128_0_0 : S1171456x128.Slices ![0, 0] S45056x128
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  slices_S45056x256_S4096x256_0_0 : S45056x256.Slices ![0, 0] S4096x256
  shapeCasts_S64_S1x64 : S64.ShapeCasts S1x64
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  gather_S1171456x128_S1126400x1_S1126400x128_1_0_n_n_0_1_1128_wf : GatherDims.WF S1171456x128 S1126400x1 S1126400x128 [1] [0] [] [0] [] 1 ![1, 128]
  scatter_S45056x128_S1126400x1_S1126400x128_1_0_0_1_wf : ScatterDims.WF S45056x128 S1126400x1 S1126400x128 [1] [0] [0] 1
  scatter_S45056_S1126400x1_S1126400_n_0_0_1_wf : ScatterDims.WF S45056 S1126400x1 S1126400 [] [0] [0] 1
  dot_S2048x128_S128x256_S2048x256_1_0_0_1_n_n_wf : DotDims.WF S2048x128 S128x256 S2048x256 [1] [0] [0] [1] [] []
  gather_S45056x256_S40960x1_S40960x256_1_0_n_n_0_1_1256_wf : GatherDims.WF S45056x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S45056x128.size a
  hwx0_0 : ∀ i : grid0.Coords, EltTy.bits .f32 = 32 ∨ (Rect.block (s := S45056x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S45056x128.size a
  hwx0_1 : ∀ i : grid0.Coords, EltTy.bits .f32 = 32 ∨ (Rect.block (s := S45056x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S45056x256.size a
  hwx0_5 : ∀ i : grid0.Coords, EltTy.bits .f32 = 32 ∨ (Rect.block (s := S45056x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .f32 = 32 ∨ (Rect.block (s := S4096x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S4096x64.size a
  hwx1_5 : ∀ i : grid1.Coords, EltTy.bits .f32 = 32 ∨ (Rect.block (s := S4096x64) S1024x64.size (cc1_transform_5 i) (hinb1_5 i)).WholeWords (EltTy.packing .f32)

variable [Facts₀]

def gather_S1171456x128_S1126400x1_S1126400x128_1_0_n_n_0_1_1128 : GatherDims S1171456x128 S1126400x1 S1126400x128 where
  offsetDims := [1]
  collapsedSliceDims := [0]
  operandBatchingDims := []
  startIndicesBatchingDims := []
  startIndexMap := [0]
  indexVectorDim := 1
  sliceSizes := ![1, 128]
  wf := gather_S1171456x128_S1126400x1_S1126400x128_1_0_n_n_0_1_1128_wf
def scatter_S45056x128_S1126400x1_S1126400x128_1_0_0_1 : ScatterDims S45056x128 S1126400x1 S1126400x128 where
  updateWindowDims := [1]
  insertedWindowDims := [0]
  scatterDimsToOperandDims := [0]
  indexVectorDim := 1
  wf := scatter_S45056x128_S1126400x1_S1126400x128_1_0_0_1_wf
def scatter_S45056_S1126400x1_S1126400_n_0_0_1 : ScatterDims S45056 S1126400x1 S1126400 where
  updateWindowDims := []
  insertedWindowDims := [0]
  scatterDimsToOperandDims := [0]
  indexVectorDim := 1
  wf := scatter_S45056_S1126400x1_S1126400_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S45056x256_S40960x1_S40960x256_1_0_n_n_0_1_1256 : GatherDims S45056x256 S40960x1 S40960x256 where
  offsetDims := [1]
  collapsedSliceDims := [0]
  operandBatchingDims := []
  startIndicesBatchingDims := []
  startIndexMap := [0]
  indexVectorDim := 1
  sliceSizes := ![1, 256]
  wf := gather_S45056x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v18) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1171456x128 : Shape := ⟨2, ![1171456, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1126400 : Shape := ⟨1, ![1126400]⟩
abbrev S40960 : Shape := ⟨1, ![40960]⟩
abbrev S45056x128 : Shape := ⟨2, ![45056, 128]⟩
abbrev S_ : Shape := ⟨0, ![]⟩
abbrev S1126400x1 : Shape := ⟨2, ![1126400, 1]⟩
abbrev S1126400x128 : Shape := ⟨2, ![1126400, 128]⟩
abbrev S45056 : Shape := ⟨1, ![45056]⟩
abbrev S45056x1 : Shape := ⟨2, ![45056, 1]⟩
abbrev S45056x256 : Shape := ⟨2, ![45056, 256]⟩
abbrev S1x256 : Shape := ⟨2, ![1, 256]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S1171456x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S256x64, .f32⟩
  | .hbm, ⟨6, _⟩ => ⟨S64, .f32⟩
  | .hbm, ⟨7, _⟩ => ⟨S1126400, .i32⟩
  | .hbm, ⟨8, _⟩ => ⟨S1126400, .i32⟩
  | .hbm, ⟨9, _⟩ => ⟨S40960, .i32⟩
  | .hbm, ⟨10, _⟩ => ⟨S40960, .i32⟩
  | .hbm, ⟨11, _⟩ => ⟨S45056x128, .f32⟩
  | .hbm, ⟨12, _⟩ => ⟨S_, .i32⟩
  | .hbm, ⟨13, _⟩ => ⟨S1126400, .i32⟩
  | .hbm, ⟨14, _⟩ => ⟨S1126400, .i1⟩
  | .hbm, ⟨15, _⟩ => ⟨S_, .i32⟩
  | .hbm, ⟨16, _⟩ => ⟨S1126400, .i32⟩
  | .hbm, ⟨17, _⟩ => ⟨S1126400, .i32⟩
  | .hbm, ⟨18, _⟩ => ⟨S1126400, .i32⟩
  | .hbm, ⟨19, _⟩ => ⟨S1126400x1, .i32⟩
  | .hbm, ⟨20, _⟩ => ⟨S1126400x128, .f32⟩
  | .hbm, ⟨21, _⟩ => ⟨S_, .f32⟩
  | .hbm, ⟨22, _⟩ => ⟨S45056x128, .f32⟩
  | .hbm, ⟨23, _⟩ => ⟨S1126400x1, .i32⟩
  | .hbm, ⟨24, _⟩ => ⟨S45056x128, .f32⟩
  | .hbm, ⟨25, _⟩ => ⟨S_, .f32⟩
  | .hbm, ⟨26, _⟩ => ⟨S1126400, .f32⟩
  | .hbm, ⟨27, _⟩ => ⟨S_, .f32⟩
  | .hbm, ⟨28, _⟩ => ⟨S45056, .f32⟩
  | .hbm, ⟨29, _⟩ => ⟨S1126400x1, .i32⟩
  | .hbm, ⟨30, _⟩ => ⟨S45056, .f32⟩
  | .hbm, ⟨31, _⟩ => ⟨S_, .f32⟩
  | .hbm, ⟨32, _⟩ => ⟨S45056, .f32⟩
  | .hbm, ⟨33, _⟩ => ⟨S45056, .f32⟩
  | .hbm, ⟨34, _⟩ => ⟨S45056x1, .f32⟩
  | .hbm, ⟨35, _⟩ => ⟨S45056x128, .f32⟩
  | .hbm, ⟨36, _⟩ => ⟨S45056x128, .f32⟩
  | .hbm, ⟨37, _⟩ => ⟨S45056x256, .f32⟩
  | .hbm, ⟨38, _⟩ => ⟨S45056x256, .f32⟩
  | .hbm, ⟨39, _⟩ => ⟨S45056x256, .f32⟩
  | .hbm, ⟨40, _⟩ => ⟨S1x256, .f32⟩
  | .hbm, ⟨41, _⟩ => ⟨S45056x256, .f32⟩
  | .hbm, ⟨42, _⟩ => ⟨S45056x256, .f32⟩
  | .hbm, ⟨43, _⟩ => ⟨S_, .f32⟩
  | .hbm, ⟨44, _⟩ => ⟨S45056x256, .f32⟩
  | .hbm, ⟨45, _⟩ => ⟨S45056x256, .f32⟩
  | .hbm, ⟨46, _⟩ => ⟨S4096x256, .f32⟩
  | .hbm, ⟨47, _⟩ => ⟨S_, .i32⟩
  | .hbm, ⟨48, _⟩ => ⟨S40960, .i32⟩
  | .hbm, ⟨49, _⟩ => ⟨S40960, .i1⟩
  | .hbm, ⟨50, _⟩ => ⟨S_, .i32⟩
  | .hbm, ⟨51, _⟩ => ⟨S40960, .i32⟩
  | .hbm, ⟨52, _⟩ => ⟨S40960, .i32⟩
  | .hbm, ⟨53, _⟩ => ⟨S40960, .i32⟩
  | .hbm, ⟨54, _⟩ => ⟨S40960x1, .i32⟩
  | .hbm, ⟨55, _⟩ => ⟨S40960x256, .f32⟩
  | .hbm, ⟨56, _⟩ => ⟨S_, .f32⟩
  | .hbm, ⟨57, _⟩ => ⟨S4096x256, .f32⟩
  | .hbm, ⟨58, _⟩ => ⟨S40960x1, .i32⟩
  | .hbm, ⟨59, _⟩ => ⟨S4096x256, .f32⟩
  | .hbm, ⟨60, _⟩ => ⟨S_, .f32⟩
  | .hbm, ⟨61, _⟩ => ⟨S40960, .f32⟩
  | .hbm, ⟨62, _⟩ => ⟨S_, .f32⟩
  | .hbm, ⟨63, _⟩ => ⟨S4096, .f32⟩
  | .hbm, ⟨64, _⟩ => ⟨S40960x1, .i32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S1x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1, .f32⟩
  | .hbm, ⟨91, _⟩ => ⟨S4096x64, .f32⟩
  | .hbm, ⟨92, _⟩ => ⟨S4096x64, .f32⟩
  | _, _ => ⟨S1171456x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S1171456x128_S45056x128_0_0 : S1171456x128.Slices ![0, 0] S45056x128
  bcast_S_S1126400 : S_.BroadcastsInDim S1126400 (![] : Fin 0 → Fin S1126400.rank)
  bcast_S1126400_S1126400x1_0 : S1126400.BroadcastsInDim S1126400x1 (![0] : Fin 1 → Fin S1126400x1.rank)
  bcast_S_S45056x128 : S_.BroadcastsInDim S45056x128 (![] : Fin 0 → Fin S45056x128.rank)
  bcast_S_S45056 : S_.BroadcastsInDim S45056 (![] : Fin 0 → Fin S45056.rank)
  bcast_S45056_S45056x1_0 : S45056.BroadcastsInDim S45056x1 (![0] : Fin 1 → Fin S45056x1.rank)
  bcast_S45056x1_S45056x128_0_1 : S45056x1.BroadcastsInDim S45056x128 (![0, 1] : Fin 2 → Fin S45056x128.rank)
  bcast_S256_S1x256_1 : S256.BroadcastsInDim S1x256 (![1] : Fin 1 → Fin S1x256.rank)
  bcast_S1x256_S45056x256_0_1 : S1x256.BroadcastsInDim S45056x256 (![0, 1] : Fin 2 → Fin S45056x256.rank)
  bcast_S_S45056x256 : S_.BroadcastsInDim S45056x256 (![] : Fin 0 → Fin S45056x256.rank)
  slices_S45056x256_S4096x256_0_0 : S45056x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  bcast_S4096x1_S4096x64_0_1 : S4096x1.BroadcastsInDim S4096x64 (![0, 1] : Fin 2 → Fin S4096x64.rank)
  gather_S1171456x128_S1126400x1_S1126400x128_1_0_n_n_0_1_1128_wf : GatherDims.WF S1171456x128 S1126400x1 S1126400x128 [1] [0] [] [0] [] 1 ![1, 128]
  scatter_S45056x128_S1126400x1_S1126400x128_1_0_0_1_wf : ScatterDims.WF S45056x128 S1126400x1 S1126400x128 [1] [0] [0] 1
  scatter_S45056_S1126400x1_S1126400_n_0_0_1_wf : ScatterDims.WF S45056 S1126400x1 S1126400 [] [0] [0] 1
  dot_S45056x128_S128x256_S45056x256_1_0_0_1_n_n_wf : DotDims.WF S45056x128 S128x256 S45056x256 [1] [0] [0] [1] [] []
  gather_S45056x256_S40960x1_S40960x256_1_0_n_n_0_1_1256_wf : GatherDims.WF S45056x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x64_S4096x64_1_0_0_1_n_n_wf : DotDims.WF S4096x256 S256x64 S4096x64 [1] [0] [0] [1] [] []

variable [Facts₀]

def gather_S1171456x128_S1126400x1_S1126400x128_1_0_n_n_0_1_1128 : GatherDims S1171456x128 S1126400x1 S1126400x128 where
  offsetDims := [1]
  collapsedSliceDims := [0]
  operandBatchingDims := []
  startIndicesBatchingDims := []
  startIndexMap := [0]
  indexVectorDim := 1
  sliceSizes := ![1, 128]
  wf := gather_S1171456x128_S1126400x1_S1126400x128_1_0_n_n_0_1_1128_wf
def scatter_S45056x128_S1126400x1_S1126400x128_1_0_0_1 : ScatterDims S45056x128 S1126400x1 S1126400x128 where
  updateWindowDims := [1]
  insertedWindowDims := [0]
  scatterDimsToOperandDims := [0]
  indexVectorDim := 1
  wf := scatter_S45056x128_S1126400x1_S1126400x128_1_0_0_1_wf
def scatter_S45056_S1126400x1_S1126400_n_0_0_1 : ScatterDims S45056 S1126400x1 S1126400 where
  updateWindowDims := []
  insertedWindowDims := [0]
  scatterDimsToOperandDims := [0]
  indexVectorDim := 1
  wf := scatter_S45056_S1126400x1_S1126400_n_0_0_1_wf
def dot_S45056x128_S128x256_S45056x256_1_0_0_1_n_n : DotDims S45056x128 S128x256 S45056x256 where
  lhsContracting := [1]
  rhsContracting := [0]
  lhsNonContracting := [0]
  rhsNonContracting := [1]
  lhsBatch := []
  rhsBatch := []
  wf := dot_S45056x128_S128x256_S45056x256_1_0_0_1_n_n_wf
def gather_S45056x256_S40960x1_S40960x256_1_0_n_n_0_1_1256 : GatherDims S45056x256 S40960x1 S40960x256 where
  offsetDims := [1]
  collapsedSliceDims := [0]
  operandBatchingDims := []
  startIndicesBatchingDims := []
  startIndexMap := [0]
  indexVectorDim := 1
  sliceSizes := ![1, 256]
  wf := gather_S45056x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.Spec.lean ====
/-
  Two layers of neighbour-mean graph convolution, as functions on the extended reals.

  A layer combines, for each target node `p` and output channel `j`, the node's aggregated neighbour features
  and its own (root) features through two weight matrices and a bias:
      combine p j = (∑ a, agg (p, a) * wl (a, j)) + (∑ a, xt (p, a) * wr (a, j)) + b j.
  The hidden layer clamps this below at zero. The output layer takes, along each row, the logarithm of the
  softmax, in its shifted form: with `mx p` the largest entry of row `p` (the fold of `max` from the value of the
  f32 pattern of minus infinity), the entry is `(combine p j - mx p) - log (∑ j', exp (combine p j' - mx p))`.
  Nothing here depends on how a row range is tiled, nor on the order in which a sum is taken.
-/
import Idealize.ShloMosaic.Lib.ValueIdx
import Idealize.ShloMosaic.PureOps.Ideal.Laws

noncomputable section

namespace Cert.Sage

open Idealize.ShloMosaic Idealize.ShloMosaic.ValueIdx

/-- The affine part of a layer at target row `p` and output channel `j`: the aggregated row against the left
    weights, the root row against the right weights, and the bias, added in this grouping. -/
def combine {M K N : Nat} (agg xt : (⟨2, ![M, K]⟩ : Shape).Idx → EReal) (wl wr : (⟨2, ![K, N]⟩ : Shape).Idx → EReal)
    (b : Fin N → EReal) (p : Fin M) (j : Fin N) : EReal :=
  (∑ a : Fin K, agg (ix2 p a) * wl (ix2 a j)) + (∑ a : Fin K, xt (ix2 p a) * wr (ix2 a j)) + b j

/-- The hidden layer: the affine part clamped below at zero, as one array over (row, channel). -/
def hidden {M K N : Nat} (agg xt : (⟨2, ![M, K]⟩ : Shape).Idx → EReal) (wl wr : (⟨2, ![K, N]⟩ : Shape).Idx → EReal)
    (b : Fin N → EReal) : (⟨2, ![M, N]⟩ : Shape).Idx → EReal :=
  fun i => max (combine agg xt wl wr b (i 0) (i 1)) 0

/-- The value the f32 pattern of minus infinity denotes: where every row maximum starts from. -/
abbrev floor32 : EReal := Ideal.ofBits .f32 0xFF800000#32

/-- The largest entry of row `p`, folded from `floor32`. -/
def rowMax {M N : Nat} (a : Fin M → Fin N → EReal) (p : Fin M) : EReal :=
  (Finset.univ : Finset (Fin N)).fold max floor32 (a p)

/-- A row maximum is at least the value it is folded from, so taking `max` with that value again changes nothing. -/
theorem max_floor_rowMax {M N : Nat} (a : Fin M → Fin N → EReal) (p : Fin M) : max floor32 (rowMax a p) = rowMax a p :=
  max_eq_right ((Finset.le_fold_max _).mpr (Or.inl le_rfl))

/-- The shifted logarithm of the softmax along row `p`, at channel `j`. -/
def logSoftmax {M N : Nat} (a : Fin M → Fin N → EReal) (p : Fin M) (j : Fin N) : EReal :=
  (a p j - rowMax a p) - Ideal.log (∑ j' : Fin N, Ideal.exp (a p j' - rowMax a p))

/-- The output layer: the row-wise logarithm of the softmax of the affine part, as one array over (row, channel). -/
def output {M K N : Nat} (agg xt : (⟨2, ![M, K]⟩ : Shape).Idx → EReal) (wl wr : (⟨2, ![K, N]⟩ : Shape).Idx → EReal)
    (b : Fin N → EReal) : (⟨2, ![M, N]⟩ : Shape).Idx → EReal :=
  fun i => logSoftmax (combine agg xt wl wr b) (i 0) (i 1)

end Cert.Sage

end
-- ==== Proof.Aggregate.lean ====
/-
  What the two programs share: the mean of a node's neighbours, and the whole two-layer network.

  Both programs form a layer's aggregated input the same way: an edge list gives, for each edge, a source row
  (a negative source index counted from the end of the array) and a target; the source rows are gathered, added
  into their targets' rows, and each target's sum is divided by the number of its edges, at least one. The hidden
  layer's own rows and, for the second layer, the first 4096 hidden rows serve as the root features. These steps
  are the same operations in the same order in both programs, so they are named here once, as functions of the
  arrays they read, and never opened: the two programs are compared above them.
-/
import proofs.«106854_j74148315398467_1_alg».proof.ReferenceIdeal
import proofs.«106854_j74148315398467_1_alg».proof.Proof.Gen.ReferenceIdeal
import proofs.«106854_j74148315398467_1_alg».proof.Proof.Spec

noncomputable section

namespace Cert.ReferenceIdeal.Aggregate

open Cert.ReferenceIdeal Cert.ReferenceIdeal.Gen Idealize.ShloMosaic Idealize.ShloMosaic.TcCoe Idealize.ShloMosaic.ValueIdx

variable {F : FTy → Type} [FloatOps F]

/-- The first layer's aggregated input: for each of the 45056 targets, the mean of the feature rows of its edges'
    sources (sum over its edges, divided by the larger of the edge count and one). -/
def neighbourMean1 (x : (⟨S1171456x128, .f32⟩ : BufTy).Contents (Elt F)) (src dst : (⟨S1126400, .i32⟩ : BufTy).Contents (Elt F)) :
    (⟨S45056x128, .f32⟩ : BufTy).Contents (Elt F) :=
  Host.divf (Host.scatterAdd scatter_S45056x128_S1126400x1_S1126400x128_1_0_0_1 (broadcastInDim S45056x128 ![] bcast_S_S45056x128 (constant S_ .f32 0x00000000#32)) (broadcastInDim S1126400x1 ![0] bcast_S1126400_S1126400x1_0 dst) (Host.gather gather_S1171456x128_S1126400x1_S1126400x128_1_0_n_n_0_1_1128 x (broadcastInDim S1126400x1 ![0] bcast_S1126400_S1126400x1_0 (select (cmpi .slt src (broadcastInDim S1126400 ![] bcast_S_S1126400 (constantI S_ 32 0#32))) (addi src (broadcastInDim S1126400 ![] bcast_S_S1126400 (constantI S_ 32 1171456#32))) src)))) (broadcastInDim S45056x128 ![0, 1] bcast_S45056x1_S45056x128_0_1 (broadcastInDim S45056x1 ![0] bcast_S45056_S45056x1_0 (maximumf (Host.scatterAdd scatter_S45056_S1126400x1_S1126400_n_0_0_1 (broadcastInDim S45056 ![] bcast_S_S45056 (constant S_ .f32 0x00000000#32)) (broadcastInDim S1126400x1 ![0] bcast_S1126400_S1126400x1_0 dst) (broadcastInDim S1126400 ![] bcast_S_S1126400 (constant S_ .f32 0x3F800000#32))) (broadcastInDim S45056 ![] bcast_S_S45056 (constant S_ .f32 0x3F800000#32)))))

/-- The second layer's aggregated input: the same mean over the second edge list, of rows of the hidden array. -/
def neighbourMean2 (h : (⟨S45056x256, .f32⟩ : BufTy).Contents (Elt F)) (src dst : (⟨S40960, .i32⟩ : BufTy).Contents (Elt F)) :
    (⟨S4096x256, .f32⟩ : BufTy).Contents (Elt F) :=
  Host.divf (Host.scatterAdd scatter_S4096x256_S40960x1_S40960x256_1_0_0_1 (broadcastInDim S4096x256 ![] bcast_S_S4096x256 (constant S_ .f32 0x00000000#32)) (broadcastInDim S40960x1 ![0] bcast_S40960_S40960x1_0 dst) (Host.gather gather_S45056x256_S40960x1_S40960x256_1_0_n_n_0_1_1256 h (broadcastInDim S40960x1 ![0] bcast_S40960_S40960x1_0 (select (cmpi .slt src (broadcastInDim S40960 ![] bcast_S_S40960 (constantI S_ 32 0#32))) (addi src (broadcastInDim S40960 ![] bcast_S_S40960 (constantI S_ 32 45056#32))) src)))) (broadcastInDim S4096x256 ![0, 1] bcast_S4096x1_S4096x256_0_1 (broadcastInDim S4096x1 ![0] bcast_S4096_S4096x1_0 (maximumf (Host.scatterAdd scatter_S4096_S40960x1_S40960_n_0_0_1 (broadcastInDim S4096 ![] bcast_S_S4096 (constant S_ .f32 0x00000000#32)) (broadcastInDim S40960x1 ![0] bcast_S40960_S40960x1_0 dst) (broadcastInDim S40960 ![] bcast_S_S40960 (constant S_ .f32 0x3F800000#32))) (broadcastInDim S4096 ![] bcast_S_S4096 (constant S_ .f32 0x3F800000#32)))))

/-- The first layer's root features: the first 45056 rows of the input features. -/
def roots1 (x : (⟨S1171456x128, .f32⟩ : BufTy).Contents (Elt F)) : (⟨S45056x128, .f32⟩ : BufTy).Contents (Elt F) :=
  extractStridedSlice S45056x128 ![0, 0] x slices_S1171456x128_S45056x128_0_0

/-- The second layer's root features: the first 4096 rows of the hidden array. -/
def roots2 (h : (⟨S45056x256, .f32⟩ : BufTy).Contents (Elt F)) : (⟨S4096x256, .f32⟩ : BufTy).Contents (Elt F) :=
  extractStridedSlice S4096x256 ![0, 0] h slices_S45056x256_S4096x256_0_0

/-- The hidden array of the whole network, on the extended reals. -/
def hiddenAll (x0 : (⟨S1171456x128, .f32⟩ : BufTy).Contents (Elt Ideal)) (x1 x2 : (⟨S128x256, .f32⟩ : BufTy).Contents (Elt Ideal))
    (x3 : (⟨S256, .f32⟩ : BufTy).Contents (Elt Ideal)) (x7 x8 : (⟨S1126400, .i32⟩ : BufTy).Contents (Elt Ideal)) :
    (⟨S45056x256, .f32⟩ : BufTy).Contents (Elt Ideal) :=
  Cert.Sage.hidden (M := 45056) (K := 128) (N := 256) (neighbourMean1 (F := Ideal) x0 x7 x8) (roots1 (F := Ideal) x0) x1 x2 (fun j => x3 (ix1 j))

/-- The network's result on the extended reals: the output layer over the hidden array's neighbour means and roots. -/
def network (x0 : (⟨S1171456x128, .f32⟩ : BufTy).Contents (Elt Ideal)) (x1 x2 : (⟨S128x256, .f32⟩ : BufTy).Contents (Elt Ideal))
    (x3 : (⟨S256, .f32⟩ : BufTy).Contents (Elt Ideal)) (x4 x5 : (⟨S256x64, .f32⟩ : BufTy).Contents (Elt Ideal))
    (x6 : (⟨S64, .f32⟩ : BufTy).Contents (Elt Ideal)) (x7 x8 : (⟨S1126400, .i32⟩ : BufTy).Contents (Elt Ideal))
    (x9 x10 : (⟨S40960, .i32⟩ : BufTy).Contents (Elt Ideal)) : (⟨S4096x64, .f32⟩ : BufTy).Contents (Elt Ideal) :=
  Cert.Sage.output (M := 4096) (K := 256) (N := 64) (neighbourMean2 (F := Ideal) (hiddenAll x0 x1 x2 x3 x7 x8) x9 x10)
    (roots2 (F := Ideal) (hiddenAll x0 x1 x2 x3 x7 x8)) x4 x5 (fun j => x6 (ix1 j))

end Cert.ReferenceIdeal.Aggregate

end
-- ==== Proof.KernelHost.lean ====
/-
  What each kernel region finds in its arrays.

  Between the launch and the first region, and between the two regions, @main runs host operations: it gathers the
  edges' source rows, adds them into their targets, counts each target's edges and divides (the neighbour mean), takes
  the root rows as a slice, and reshapes the bias vector into a single row. Read back one operation at a time, the
  first region's aggregated input is the neighbour mean of the launch contents and the second region's is the
  neighbour mean of the first region's output array; the root rows are a slice of the features, respectively of that
  output array; the bias row is the bias vector recast; and the weights, the edge lists and the second bias, which no
  host operation and no write-back of the first region touches, are still what was launched.
-/
import proofs.«106854_j74148315398467_1_alg».proof.Proof.Gen.KernelIdeal.Frame
import proofs.«106854_j74148315398467_1_alg».proof.Proof.Aggregate
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.ShloMosaic.StableHlo
open Idealize.SL.Sem
open Cert.ReferenceIdeal.Aggregate (neighbourMean1 neighbourMean2 roots1 roots2)

variable {F : FTy → Type} [FloatOps F]
variable (m : (ℓ : Loc nD τ sig) → Buf (Elt F) ℓ) (ρ : Dev nD → PrngReg)

/-! ## At the first region's entry -/

set_option maxHeartbeats 2000000 in
/-- The first region's aggregated input is the first neighbour mean of the launched features and edge list. -/
theorem entry1_mean (c : Dev nD) :
    V1 m ρ c main_v18 = neighbourMean1 (F := F) (m ((c : Thread nD τ).loc main_arg0)) (m ((c : Thread nD τ).loc main_arg7)) (m ((c : Thread nD τ).loc main_arg8)) := by
  show StableHlo.after hostOps0 (W0 m ρ c) (Proc.devRef .tc main_v18) = _
  dsimp only [hostOps0]
  after_results_simp
  rfl

/-- Its root input is the first 45056 rows of the launched features. -/
theorem entry1_roots (c : Dev nD) : V1 m ρ c main_v19 = roots1 (F := F) (m ((c : Thread nD τ).loc main_arg0)) := by
  show StableHlo.after hostOps0 (W0 m ρ c) (Proc.devRef .tc main_v19) = _
  dsimp only [hostOps0]
  after_results_simp
  rfl

/-- Its bias row is the launched bias vector recast as one row. -/
theorem entry1_bias (c : Dev nD) :
    V1 m ρ c main_v20 = shapeCast S1x256 (m ((c : Thread nD τ).loc main_arg3)) shapeCasts_S256_S1x256 := by
  show StableHlo.after hostOps0 (W0 m ρ c) (Proc.devRef .tc main_v20) = _
  dsimp only [hostOps0]
  after_results_simp
  rfl

/-- Its weights are the launched ones. -/
theorem entry1_wl (c : Dev nD) : V1 m ρ c main_arg1 = m ((c : Thread nD τ).loc main_arg1) := by
  show StableHlo.after hostOps0 (W0 m ρ c) (Proc.devRef .tc main_arg1) = _
  dsimp only [hostOps0]
  after_results_simp <;> rfl
theorem entry1_wr (c : Dev nD) : V1 m ρ c main_arg2 = m ((c : Thread nD τ).loc main_arg2) := by
  show StableHlo.after hostOps0 (W0 m ρ c) (Proc.devRef .tc main_arg2) = _
  dsimp only [hostOps0]
  after_results_simp <;> rfl

/-! ## Between the regions: what the first region and the first host stretch leave alone -/

theorem between_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    dsimp only [hostOps0]
    after_results_simp <;> rfl)
theorem between_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results_simp <;> rfl)
theorem between_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    dsimp only [hostOps0]
    after_results_simp <;> rfl)
theorem between_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    dsimp only [hostOps0]
    after_results_simp <;> rfl)
theorem between_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    dsimp only [hostOps0]
    after_results_simp <;> rfl)

/-! ## At the second region's entry, over the first region's output array -/

set_option maxHeartbeats 2000000 in
/-- The second region's aggregated input is the second neighbour mean of the first region's output array. -/
theorem entry2_mean (c : Dev nD) :
    V3 m ρ c main_v40 = neighbourMean2 (F := F) (W2 m ρ c (Proc.devRef .tc main_v21)) (m ((c : Thread nD τ).loc main_arg9)) (m ((c : Thread nD τ).loc main_arg10)) := by
  show StableHlo.after hostOps1 (W2 m ρ c) (Proc.devRef .tc main_v40) = _
  dsimp only [hostOps1]
  after_results_simp
  rw [between_arg9 m ρ c, between_arg10 m ρ c]
  rfl

/-- Its root input is the first 4096 rows of that array. -/
theorem entry2_roots (c : Dev nD) : V3 m ρ c main_v41 = roots2 (F := F) (W2 m ρ c (Proc.devRef .tc main_v21)) := by
  show StableHlo.after hostOps1 (W2 m ρ c) (Proc.devRef .tc main_v41) = _
  dsimp only [hostOps1]
  after_results_simp
  rfl

/-- Its bias row is the launched second bias vector recast as one row. -/
theorem entry2_bias (c : Dev nD) :
    V3 m ρ c main_v42 = shapeCast S1x64 (m ((c : Thread nD τ).loc main_arg6)) shapeCasts_S64_S1x64 := by
  show StableHlo.after hostOps1 (W2 m ρ c) (Proc.devRef .tc main_v42) = _
  dsimp only [hostOps1]
  after_results_simp
  rw [between_arg6 m ρ c]
  rfl

/-- Its weights are the launched ones. -/
theorem entry2_wl (c : Dev nD) : V3 m ρ c main_arg4 = m ((c : Thread nD τ).loc main_arg4) := by
  show StableHlo.after hostOps1 (W2 m ρ c) (Proc.devRef .tc main_arg4) = _
  dsimp only [hostOps1]
  after_results_simp
  exact between_arg4 m ρ c
theorem entry2_wr (c : Dev nD) : V3 m ρ c main_arg5 = m ((c : Thread nD τ).loc main_arg5) := by
  show StableHlo.after hostOps1 (W2 m ρ c) (Proc.devRef .tc main_arg5) = _
  dsimp only [hostOps1]
  after_results_simp
  exact between_arg5 m ρ c

end Cert.KernelIdeal.HostValues

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Layer1.lean ====
/-
  The hidden layer as the first kernel computes it.

  At one grid point the kernel holds a block of 2048 target rows: the rows' aggregated neighbour features and the
  rows' own features (each 2048 by 128), both weight matrices (128 by 256) and the bias as a single row (1 by 256).
  It narrows the four matrices to bf16, which changes nothing on the extended reals, multiplies each feature block
  by its weights into a zero accumulator, adds the two products, adds the bias row broadcast down the block, and
  clamps the result below at zero. Read at row `p` and channel `j` of the block, a product into a zero
  accumulator is the plain sum over the 128 input channels, so the stored entry is `max (combine p j) 0` with
  `combine` the layer's affine part (`Cert.Sage.combine`) of the block's own rows.

  The output's blocks are consecutive ranges of 2048 rows, 22 of them, and block `t` of every row-indexed operand
  is rows `2048 t` to `2048 t + 2047` of its array, while the weights and the bias are the same block at every
  point. So what point `t` writes back is block `t` of ONE array, the hidden layer (`Cert.Sage.hidden`) of the
  whole arrays, and since the 22 blocks cover all 45056 rows the output array ends holding exactly that.
-/
import proofs.«106854_j74148315398467_1_alg».proof.Proof.Gen.KernelIdeal.Frame
import proofs.«106854_j74148315398467_1_alg».proof.Proof.Spec
import proofs.«106854_j74148315398467_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat)

/-! ## The product's dimension numbers: which coordinate of each operand is the output's, which the contracted one -/

theorem dot_lhs_row (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem dot_lhs_contr (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem dot_rhs_contr (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem dot_rhs_col (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- A block product into the zero accumulator, at row `p` and channel `j`: the sum over the 128 input channels. -/
theorem product_apply (l : FVec Ideal S2048x128 .bf16) (r : FVec Ideal S128x256 .bf16) (p : Fin 2048) (j : Fin 256) :
    matmul dot_S2048x128_S128x256_S2048x256_1_0_0_1_n_n none l r (constant (F := Ideal) S2048x256 .f32 0x00000000#32) (ix2 p j)
      = ∑ a : Fin 128, l (ix2 p a) * r (ix2 a j) :=
  Cert.Lib.Dot2.matmul_zero_ix2 (M := 2048) (K := 128) (N := 256) dot_S2048x128_S128x256_S2048x256_1_0_0_1_n_n none rfl rfl
    dot_lhs_row dot_lhs_contr dot_rhs_contr dot_rhs_col l r p j

/-! ## The stored block at an entry -/

/-- What the body stores, at row `p` and channel `j` of the block: the affine part of the block's rows, clamped at zero. -/
theorem payload_apply (x0 x1 : Vec Ideal S2048x128 .f32) (x2 x3 : Vec Ideal S128x256 .f32) (x4 : Vec Ideal S1x256 .f32)
    (p : Fin 2048) (j : Fin 256) :
    k0_pay1 (F := Ideal) x0 x1 x2 x3 x4 (ix2 p j)
      = max (Cert.Sage.combine (M := 2048) (K := 128) (N := 256) x0 x1 x2 x3 (fun c => x4 (ix2 (0 : Fin 1) c)) p j) 0 := by
  unfold k0_pay1 Cert.Sage.combine
  dsimp only
  show max ((matmul dot_S2048x128_S128x256_S2048x256_1_0_0_1_n_n none _ _ _ (ix2 p j)
      + matmul dot_S2048x128_S128x256_S2048x256_1_0_0_1_n_n none _ _ _ (ix2 p j))
      + broadcastTo S2048x256 _ broadcasts_S1x256_S2048x256 (ix2 p j)) (Ideal.ofBits .f32 0x00000000#32) = _
  rw [product_apply, product_apply, broadcastTo_1b_ab_apply, shapeCast_self, shapeCast_self, shapeCast_self, shapeCast_self,
    Ideal.ofBits_zero_f32]
  rfl

/-! ## A block's entry against the whole arrays -/

/-- If the block's feature rows are rows `ρ p` of two whole arrays, and its weights and bias row are the whole
    weights and bias, the stored entry at `(p, q)` is the hidden layer of the whole arrays at `(ρ p, q)`. -/
theorem block_entry (x0 x1 : Vec Ideal S2048x128 .f32) (x2 x3 : Vec Ideal S128x256 .f32) (x4 : Vec Ideal S1x256 .f32)
    (A XT : (⟨2, ![45056, 128]⟩ : Shape).Idx → EReal) (WL WR : (⟨2, ![128, 256]⟩ : Shape).Idx → EReal) (b : Fin 256 → EReal)
    (ρ : Fin 2048 → Fin 45056)
    (h0 : ∀ (p : Fin 2048) (a : Fin 128), x0 (ix2 p a) = A (ix2 (ρ p) a))
    (h1 : ∀ (p : Fin 2048) (a : Fin 128), x1 (ix2 p a) = XT (ix2 (ρ p) a))
    (h2 : ∀ (a : Fin 128) (j : Fin 256), x2 (ix2 a j) = WL (ix2 a j))
    (h3 : ∀ (a : Fin 128) (j : Fin 256), x3 (ix2 a j) = WR (ix2 a j))
    (h4 : ∀ j : Fin 256, x4 (ix2 (0 : Fin 1) j) = b j) (p : Fin 2048) (q : Fin 256) :
    k0_pay1 (F := Ideal) x0 x1 x2 x3 x4 (ix2 p q)
      = Cert.Sage.hidden (M := 45056) (K := 128) (N := 256) A XT WL WR b (ix2 (ρ p) q) := by
  rw [payload_apply]
  unfold Cert.Sage.hidden Cert.Sage.combine
  show max (∑ a : Fin 128, x0 (ix2 p a) * x2 (ix2 a q) + ∑ a : Fin 128, x1 (ix2 p a) * x3 (ix2 a q) + x4 (ix2 (0 : Fin 1) q)) 0
    = max (∑ a : Fin 128, A (ix2 (ρ p) a) * WL (ix2 a q) + ∑ a : Fin 128, XT (ix2 (ρ p) a) * WR (ix2 a q) + b q) 0
  simp only [h0, h1, h2, h3, h4]

/-! ## From the blocks to the array -/

section Array

variable (V : (c : Dev nD) → (b : Ref sig .tc) → Buf (Elt Ideal) ((c : Thread nD τ).loc b))

theorem zeros : (![0, 0] : Fin 2 → Nat) = fun _ => 0 := funext fun a => by fin_cases a <;> rfl

/-- The hidden layer of the arrays as the region finds them. -/
abbrev hiddenOf (c : Dev nD) : (⟨2, ![45056, 256]⟩ : Shape).Idx → EReal :=
  Cert.Sage.hidden (M := 45056) (K := 128) (N := 256) (V c main_v18) (V c main_v19) (V c main_arg1) (V c main_arg2)
    (fun j => V c main_v20 (ix2 (0 : Fin 1) j))

/-- The printed index maps over the 22 grid points: the row-indexed windows' block is the point's number, the weights'
    and the bias's block is always the first. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that block row `p` of point `t` is. -/
def rowAt (t : Fin cfg0.N) (p : Fin 2048) : Fin 45056 :=
  ⟨2048 * t.val + p.val, by have ht : t.val < 22 := lt_of_lt_of_eq t.isLt N_0; have := p.isLt; omega⟩

/-- WHAT POINT `t` WRITES BACK is block `t` of the hidden layer of the arrays as the region finds them. -/
theorem flushed_eq (c : Dev nD) (t : Fin cfg0.N) :
    (dat0 (F := Ideal) V c).flushed 5 t = ((cfg0.win 5).blk t).view.read (Elt Ideal) (hiddenOf V c) := by
  show (cfg0.win 5).cut (grid0.coords t) ((dat0 (F := Ideal) V c).after 5 t) = _
  rw [after0_5]
  unfold out0_5
  rw [View.canon_unit_zero zeros]
  simp only [View.ld_unit_zero (S := S2048x128) zeros, View.ld_unit_zero (S := S128x256) zeros, View.ld_unit_zero (S := S1x256) zeros]
  obtain ⟨e00, e01, e10, e11, e20, e21, e30, e31, e40, e41, e50, e51⟩ := index_facts t
  funext y
  obtain ⟨p, q, rfl⟩ : ∃ (p : Fin 2048) (q : Fin 256), y = ix2 p q := ⟨y 0, y 1, eq_ix2 y⟩
  have hp : p.val < 2048 := p.isLt
  have hq : q.val < 256 := q.isLt
  refine (block_entry (iblk0 V c 0 t) (iblk0 V c 1 t) (iblk0 V c 2 t) (iblk0 V c 3 t) (iblk0 V c 4 t)
    (V c main_v18) (V c main_v19) (V c main_arg1) (V c main_arg2) (fun j => V c main_v20 (ix2 (0 : Fin 1) j)) (rowAt t)
    ?_ ?_ ?_ ?_ ?_ p q).trans ?_
  · intro p a
    show V c main_v18 (((cfg0.win 0).blk t).view.emb (ix2 p a)) = V c main_v18 (ix2 (rowAt t p) a)
    refine congrArg (V c main_v18) (funext fun d => Fin.ext ?_)
    match d with
    | ⟨0, _⟩ => show win0_0.index t (0 : Fin 2) * 2048 + 1 * p.val = 2048 * t.val + p.val; omega
    | ⟨1, _⟩ => show win0_0.index t (1 : Fin 2) * 128 + 1 * a.val = a.val; omega
  · intro p a
    show V c main_v19 (((cfg0.win 1).blk t).view.emb (ix2 p a)) = V c main_v19 (ix2 (rowAt t p) a)
    refine congrArg (V c main_v19) (funext fun d => Fin.ext ?_)
    match d with
    | ⟨0, _⟩ => show win0_1.index t (0 : Fin 2) * 2048 + 1 * p.val = 2048 * t.val + p.val; omega
    | ⟨1, _⟩ => show win0_1.index t (1 : Fin 2) * 128 + 1 * a.val = a.val; omega
  · intro a j
    show V c main_arg1 (((cfg0.win 2).blk t).view.emb (ix2 a j)) = V c main_arg1 (ix2 a j)
    refine congrArg (V c main_arg1) (funext fun d => Fin.ext ?_)
    match d with
    | ⟨0, _⟩ => show win0_2.index t (0 : Fin 2) * 128 + 1 * a.val = a.val; omega
    | ⟨1, _⟩ => show win0_2.index t (1 : Fin 2) * 256 + 1 * j.val = j.val; omega
  · intro a j
    show V c main_arg2 (((cfg0.win 3).blk t).view.emb (ix2 a j)) = V c main_arg2 (ix2 a j)
    refine congrArg (V c main_arg2) (funext fun d => Fin.ext ?_)
    match d with
    | ⟨0, _⟩ => show win0_3.index t (0 : Fin 2) * 128 + 1 * a.val = a.val; omega
    | ⟨1, _⟩ => show win0_3.index t (1 : Fin 2) * 256 + 1 * j.val = j.val; omega
  · intro j
    show V c main_v20 (((cfg0.win 4).blk t).view.emb (ix2 (0 : Fin 1) j)) = V c main_v20 (ix2 (0 : Fin 1) j)
    refine congrArg (V c main_v20) (funext fun d => Fin.ext ?_)
    match d with
    | ⟨0, _⟩ => show win0_4.index t (0 : Fin 2) * 1 + 1 * 0 = 0; omega
    | ⟨1, _⟩ => show win0_4.index t (1 : Fin 2) * 256 + 1 * j.val = j.val; omega
  · show hiddenOf V c (ix2 (rowAt t p) q) = hiddenOf V c (((cfg0.win 5).blk t).view.emb (ix2 p q))
    refine congrArg (hiddenOf V c) (funext fun d => Fin.ext ?_)
    match d with
    | ⟨0, _⟩ => show 2048 * t.val + p.val = win0_5.index t (0 : Fin 2) * 2048 + 1 * p.val; omega
    | ⟨1, _⟩ => show q.val = win0_5.index t (1 : Fin 2) * 256 + 1 * q.val; omega

/-- An index of the output array is in point `t`'s block iff its row is among that block's 2048 rows. -/
theorem mem_block (t : Fin cfg0.N) (i : S45056x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v21).slice (win0_5.rect t)).set ↔ _
  rw [View.set_slice_whole, Rect.mem_set_unit]
  exact Iff.rfl

/-- Every row of the output array lies in the block of the point numbered by its row divided by 2048. -/
theorem covered (i : S45056x256.Idx) :
    ∃ t : Fin cfg0.N, (cfg0.win 5).flush t = true ∧ i ∈ ((cfg0.win 5).blk t).view.set := by
  have hi0 : (i 0).val < 45056 := (i 0).isLt
  have hi1 : (i 1).val < 256 := (i 1).isLt
  let t : Fin cfg0.N := ⟨(i 0).val / 2048, by rw [show cfg0.N = 22 from N_0]; omega⟩
  obtain ⟨-, -, -, -, -, -, -, -, -, -, e50, e51⟩ := index_facts t
  have e50' : win0_5.index t (0 : Fin 2) = (i 0).val / 2048 := e50
  refine ⟨t, flush0_5 t, ?_⟩
  rw [mem_block]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 256 ≤ (i 1).val ∧ (i 1).val < win0_5.index t (1 : Fin 2) * 256 + 256; omega

/-- THE OUTPUT ARRAY after the region: the hidden layer of the arrays as the region finds them. -/
theorem hidden_array (c : Dev nD) : (dat0 (F := Ideal) V c).arrAt 5 cfg0.N = hiddenOf V c :=
  (dat0 (F := Ideal) V c).arrAt_eq_of_cover 5 (hiddenOf V c) (fun t _ => flushed_eq V c t) (covered)

end Array

end Cert.KernelIdeal.Layer1

end
-- ==== Proof.LibColumn.lean ====
/-
  A per-row value kept as a column.

  A reduction along the rows of an `[a, b]` array gives one value per row, an `[a]` vector. Keeping the reduced
  axis as a unit axis turns it into an `[a, 1]` column, and subtracting it from the array broadcasts the column
  across the `b` entries of each row. Read at an index, the column at `(i, u)` is the vector at `i` whatever the unit
  coordinate, and the broadcast at `(p, c)` is the column at `(p, 0)`.
-/
import Idealize.ShloMosaic.Lib.Pipeline.Value
import Idealize.ShloMosaic.Lib.ValueIdx

noncomputable section

namespace Cert.Lib.Column

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Layer2.lean ====
/-
  The output layer as the second kernel computes it.

  At one grid point the kernel holds a block of 1024 target rows: their aggregated hidden features and their own
  hidden features (each 1024 by 256), both weight matrices (256 by 64) and the bias as a single row (1 by 64).
  As in the first kernel it forms the affine part of the layer for the block, entry `(p, j)` being the sums over the 256
  hidden channels plus the bias. Then, row by row: the row's maximum (a fold of `max` over the row's 64 entries from
  the value of the pattern of minus infinity), the entries shifted down by it, the sum of their exponentials from
  zero, its logarithm, and the shifted entry minus that logarithm. That is the row-wise logarithm of the softmax
  (`Cert.Sage.logSoftmax`) of the block's affine part, and every step stays inside the row, so the entry at `(p, j)`
  depends on row `p` of the block only.

  The output's blocks are consecutive ranges of 1024 rows, four of them, covering all 4096 rows; block `t` of each
  row-indexed operand is rows `1024 t` to `1024 t + 1023` of its array, and the weights and bias are the same block at
  every point. So the output array ends holding the output layer (`Cert.Sage.output`) of the whole arrays.
-/
import proofs.«106854_j74148315398467_1_alg».proof.Proof.Gen.KernelIdeal.Frame
import proofs.«106854_j74148315398467_1_alg».proof.Proof.Spec
import proofs.«106854_j74148315398467_1_alg».proof.Proof.LibDot2
import proofs.«106854_j74148315398467_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat)

/-! ## The product's dimension numbers -/

theorem dot_lhs_row (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem dot_lhs_contr (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem dot_rhs_contr (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem dot_rhs_col (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- A block product into the zero accumulator, at row `p` and channel `j`: the sum over the 256 hidden channels. -/
theorem product_apply (l : FVec Ideal S1024x256 .bf16) (r : FVec Ideal S256x64 .bf16) (p : Fin 1024) (j : Fin 64) :
    matmul dot_S1024x256_S256x64_S1024x64_1_0_0_1_n_n none l r (constant (F := Ideal) S1024x64 .f32 0x00000000#32) (ix2 p j)
      = ∑ a : Fin 256, l (ix2 p a) * r (ix2 a j) :=
  Cert.Lib.Dot2.matmul_zero_ix2 (M := 1024) (K := 256) (N := 64) dot_S1024x256_S256x64_S1024x64_1_0_0_1_n_n none rfl rfl
    dot_lhs_row dot_lhs_contr dot_rhs_contr dot_rhs_col l r p j

/-! ## A row of a block: its maximum and its sum -/

/-- The block index that a row's coordinate `k` is inserted into: row `p`, entry `k`. -/
theorem lift_row (p : Fin 1024) (k : Fin 64) : reduces_S1024x64_S1024.lift (ix1 p) k = ix2 p k :=
  funext fun d => Fin.ext (by
    match d with
    | ⟨0, _⟩ => rfl
    | ⟨1, _⟩ => rfl)

/-- The block's row maximum at row `p` is the fold of `max` over the row from the pattern's value. -/
theorem rowMax_apply (v : FVec Ideal S1024x64 .f32) (p : Fin 1024) :
    multiReduction .maximumf [1] S1024 v 0xFF800000#32 reduces_S1024x64_S1024 (.inl rfl) rfl (ix1 p)
      = Cert.Sage.rowMax (M := 1024) (N := 64) (fun p j => v (ix2 p j)) p :=
  (Ideal.multiReduction_maximumf_single v 0xFF800000#32 reduces_S1024x64_S1024 (.inl rfl) rfl (ix1 p)).trans
    (congrArg (fun f : Fin 64 → EReal => (Finset.univ : Finset (Fin 64)).fold max Cert.Sage.floor32 f)
      (funext fun k => congrArg v (lift_row p k)))

/-- The block's row sum at row `p` is the sum over the row. -/
theorem rowSum_apply (v : FVec Ideal S1024x64 .f32) (p : Fin 1024) :
    multiReduction .add [1] S1024 v 0x00000000#32 reduces_S1024x64_S1024 (.inl rfl) rfl (ix1 p)
      = ∑ k : Fin 64, v (ix2 p k) :=
  (Ideal.multiReduction_add_single v 0x00000000#32 reduces_S1024x64_S1024 (.inl rfl) rfl (ix1 p)).trans
    (Finset.sum_congr rfl fun k _ => congrArg v (lift_row p k))

/-! ## The row-wise logarithm of the softmax of a block -/

/-- The kernel's steps after the affine part, as a function of that block. -/
def logSoftmaxBlock (v : FVec Ideal S1024x64 .f32) : FVec Ideal S1024x64 .f32 :=
  subf
    (subf v (broadcastTo S1024x64 (shapeCast S1024x1 (multiReduction .maximumf [1] S1024 v 0xFF800000#32 reduces_S1024x64_S1024 (.inl rfl) rfl) shapeCasts_S1024_S1024x1) broadcasts_S1024x1_S1024x64))
    (broadcastTo S1024x64
      (log (shapeCast S1024x1
        (multiReduction .add [1] S1024
          (exp (subf v (broadcastTo S1024x64 (shapeCast S1024x1 (multiReduction .maximumf [1] S1024 v 0xFF800000#32 reduces_S1024x64_S1024 (.inl rfl) rfl) shapeCasts_S1024_S1024x1) broadcasts_S1024x1_S1024x64)))
          0x00000000#32 reduces_S1024x64_S1024 (.inl rfl) rfl)
        shapeCasts_S1024_S1024x1))
      broadcasts_S1024x1_S1024x64)

/-- The row maximum kept as a column and spread over the row, at an entry. -/
theorem spreadMax_apply (v : FVec Ideal S1024x64 .f32) (p : Fin 1024) (j : Fin 64) :
    broadcastTo S1024x64 (shapeCast S1024x1 (multiReduction .maximumf [1] S1024 v 0xFF800000#32 reduces_S1024x64_S1024 (.inl rfl) rfl) shapeCasts_S1024_S1024x1) broadcasts_S1024x1_S1024x64 (ix2 p j)
      = Cert.Sage.rowMax (M := 1024) (N := 64) (fun p j => v (ix2 p j)) p := by
  rw [Cert.Lib.Column.broadcastTo_a1_ab_apply, Cert.Lib.Column.shapeCast_a_a1_apply, rowMax_apply]

/-- At row `p` and channel `j` those steps give the logarithm of the softmax along row `p`. -/
theorem logSoftmaxBlock_apply (v : FVec Ideal S1024x64 .f32) (p : Fin 1024) (j : Fin 64) :
    logSoftmaxBlock v (ix2 p j) = Cert.Sage.logSoftmax (M := 1024) (N := 64) (fun p j => v (ix2 p j)) p j := by
  unfold logSoftmaxBlock Cert.Sage.logSoftmax
  show (v (ix2 p j) - broadcastTo S1024x64 _ broadcasts_S1024x1_S1024x64 (ix2 p j))
      - broadcastTo S1024x64 (log (shapeCast S1024x1 _ shapeCasts_S1024_S1024x1)) broadcasts_S1024x1_S1024x64 (ix2 p j) = _
  rw [spreadMax_apply, Cert.Lib.Column.broadcastTo_a1_ab_apply]
  show _ - Ideal.log (shapeCast S1024x1 _ shapeCasts_S1024_S1024x1 (ix2 p (0 : Fin 1))) = _
  rw [Cert.Lib.Column.shapeCast_a_a1_apply, rowSum_apply]
  refine congrArg (fun s => (v (ix2 p j) - Cert.Sage.rowMax (M := 1024) (N := 64) (fun p j => v (ix2 p j)) p) - Ideal.log s)
    (Finset.sum_congr rfl fun k _ => ?_)
  show Ideal.exp (v (ix2 p k) - broadcastTo S1024x64 _ broadcasts_S1024x1_S1024x64 (ix2 p k)) = _
  rw [spreadMax_apply]

/-! ## The stored block at an entry -/

/-- The affine part of the layer for the block, as the kernel forms it. -/
def affineBlock (x0 x1 : Vec Ideal S1024x256 .f32) (x2 x3 : Vec Ideal S256x64 .f32) (x4 : Vec Ideal S1x64 .f32) : FVec Ideal S1024x64 .f32 :=
  addf
    (addf
      (matmul dot_S1024x256_S256x64_S1024x64_1_0_0_1_n_n none (truncf .bf16 (shapeCast S1024x256 x0 shapeCasts_S1024x256_S1024x256) bitsLt_bf16_f32) (truncf .bf16 x2 bitsLt_bf16_f32) (constant S1024x64 .f32 0x00000000#32))
      (matmul dot_S1024x256_S256x64_S1024x64_1_0_0_1_n_n none (truncf .bf16 (shapeCast S1024x256 x1 shapeCasts_S1024x256_S1024x256) bitsLt_bf16_f32) (truncf .bf16 x3 bitsLt_bf16_f32) (constant S1024x64 .f32 0x00000000#32)))
    (broadcastTo S1024x64 (shapeCast S1x64 (shapeCast S1x64 x4 shapeCasts_S1x64_S1x64) shapeCasts_S1x64_S1x64) broadcasts_S1x64_S1024x64)

/-- What the body stores is the row-wise logarithm of the softmax of that affine block. -/
theorem payload_eq (x0 x1 : Vec Ideal S1024x256 .f32) (x2 x3 : Vec Ideal S256x64 .f32) (x4 : Vec Ideal S1x64 .f32) :
    k1_pay1 (F := Ideal) x0 x1 x2 x3 x4 = logSoftmaxBlock (affineBlock x0 x1 x2 x3 x4) := rfl

/-- The affine block at row `p` and channel `j`. -/
theorem affineBlock_apply (x0 x1 : Vec Ideal S1024x256 .f32) (x2 x3 : Vec Ideal S256x64 .f32) (x4 : Vec Ideal S1x64 .f32)
    (p : Fin 1024) (j : Fin 64) :
    affineBlock x0 x1 x2 x3 x4 (ix2 p j)
      = Cert.Sage.combine (M := 1024) (K := 256) (N := 64) x0 x1 x2 x3 (fun c => x4 (ix2 (0 : Fin 1) c)) p j := by
  unfold affineBlock Cert.Sage.combine
  show (matmul dot_S1024x256_S256x64_S1024x64_1_0_0_1_n_n none _ _ _ (ix2 p j) + matmul dot_S1024x256_S256x64_S1024x64_1_0_0_1_n_n none _ _ _ (ix2 p j))
      + broadcastTo S1024x64 _ broadcasts_S1x64_S1024x64 (ix2 p j) = _
  rw [product_apply, product_apply, broadcastTo_1b_ab_apply, shapeCast_self, shapeCast_self, shapeCast_self, shapeCast_self]
  rfl

/-- The logarithm of the softmax along a row depends on that row only. -/
theorem logSoftmax_of_row {M M' N : Nat} (a : Fin M → Fin N → EReal) (a' : Fin M' → Fin N → EReal) (p : Fin M) (p' : Fin M')
    (h : ∀ j, a p j = a' p' j) (j : Fin N) : Cert.Sage.logSoftmax a p j = Cert.Sage.logSoftmax a' p' j := by
  have e : a p = a' p' := funext h
  unfold Cert.Sage.logSoftmax Cert.Sage.rowMax
  rw [e]

/-- If the block's feature rows are rows `ρ p` of two whole arrays, and its weights and bias row are the whole weights
    and bias, the stored entry at `(p, q)` is the output layer of the whole arrays at `(ρ p, q)`. -/
theorem block_entry (x0 x1 : Vec Ideal S1024x256 .f32) (x2 x3 : Vec Ideal S256x64 .f32) (x4 : Vec Ideal S1x64 .f32)
    (A XT : (⟨2, ![4096, 256]⟩ : Shape).Idx → EReal) (WL WR : (⟨2, ![256, 64]⟩ : Shape).Idx → EReal) (b : Fin 64 → EReal)
    (ρ : Fin 1024 → Fin 4096)
    (h0 : ∀ (p : Fin 1024) (a : Fin 256), x0 (ix2 p a) = A (ix2 (ρ p) a))
    (h1 : ∀ (p : Fin 1024) (a : Fin 256), x1 (ix2 p a) = XT (ix2 (ρ p) a))
    (h2 : ∀ (a : Fin 256) (j : Fin 64), x2 (ix2 a j) = WL (ix2 a j))
    (h3 : ∀ (a : Fin 256) (j : Fin 64), x3 (ix2 a j) = WR (ix2 a j))
    (h4 : ∀ j : Fin 64, x4 (ix2 (0 : Fin 1) j) = b j) (p : Fin 1024) (q : Fin 64) :
    k1_pay1 (F := Ideal) x0 x1 x2 x3 x4 (ix2 p q)
      = Cert.Sage.output (M := 4096) (K := 256) (N := 64) A XT WL WR b (ix2 (ρ p) q) := by
  rw [payload_eq, logSoftmaxBlock_apply]
  show Cert.Sage.logSoftmax (M := 1024) (N := 64) (fun p j => affineBlock x0 x1 x2 x3 x4 (ix2 p j)) p q
    = Cert.Sage.logSoftmax (M := 4096) (N := 64) (Cert.Sage.combine (M := 4096) (K := 256) (N := 64) A XT WL WR b) (ρ p) q
  refine logSoftmax_of_row _ _ p (ρ p) (fun j => ?_) q
  show affineBlock x0 x1 x2 x3 x4 (ix2 p j) = _
  rw [affineBlock_apply]
  unfold Cert.Sage.combine
  simp only [h0, h1, h2, h3, h4]

/-! ## From the blocks to the array -/

section Array

variable (V : (c : Dev nD) → (b : Ref sig .tc) → Buf (Elt Ideal) ((c : Thread nD τ).loc b))

theorem zeros : (![0, 0] : Fin 2 → Nat) = fun _ => 0 := funext fun a => by fin_cases a <;> rfl

/-- The output layer of the arrays as the region finds them. -/
abbrev outputOf (c : Dev nD) : (⟨2, ![4096, 64]⟩ : Shape).Idx → EReal :=
  Cert.Sage.output (M := 4096) (K := 256) (N := 64) (V c main_v40) (V c main_v41) (V c main_arg4) (V c main_arg5)
    (fun j => V c main_v42 (ix2 (0 : Fin 1) j))

/-- The printed index maps over the four grid points: the row-indexed windows' block is the point's number, the weights'
    and the bias's block is always the first. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array row that block row `p` of point `t` is. -/
def rowAt (t : Fin cfg1.N) (p : Fin 1024) : Fin 4096 :=
  ⟨1024 * t.val + p.val, by have ht : t.val < 4 := lt_of_lt_of_eq t.isLt N_1; have := p.isLt; omega⟩

/-- WHAT POINT `t` WRITES BACK is block `t` of the output layer of the arrays as the region finds them. -/
theorem flushed_eq (c : Dev nD) (t : Fin cfg1.N) :
    (dat1 (F := Ideal) V c).flushed 5 t = ((cfg1.win 5).blk t).view.read (Elt Ideal) (outputOf V c) := by
  show (cfg1.win 5).cut (grid1.coords t) ((dat1 (F := Ideal) V c).after 5 t) = _
  rw [after1_5]
  unfold out1_5
  rw [View.canon_unit_zero zeros]
  simp only [View.ld_unit_zero (S := S1024x256) zeros, View.ld_unit_zero (S := S256x64) zeros, View.ld_unit_zero (S := S1x64) zeros]
  obtain ⟨e00, e01, e10, e11, e20, e21, e30, e31, e40, e41, e50, e51⟩ := index_facts t
  funext y
  obtain ⟨p, q, rfl⟩ : ∃ (p : Fin 1024) (q : Fin 64), y = ix2 p q := ⟨y 0, y 1, eq_ix2 y⟩
  have hp : p.val < 1024 := p.isLt
  have hq : q.val < 64 := q.isLt
  refine (block_entry (iblk1 V c 0 t) (iblk1 V c 1 t) (iblk1 V c 2 t) (iblk1 V c 3 t) (iblk1 V c 4 t)
    (V c main_v40) (V c main_v41) (V c main_arg4) (V c main_arg5) (fun j => V c main_v42 (ix2 (0 : Fin 1) j)) (rowAt t)
    ?_ ?_ ?_ ?_ ?_ p q).trans ?_
  · intro p a
    show V c main_v40 (((cfg1.win 0).blk t).view.emb (ix2 p a)) = V c main_v40 (ix2 (rowAt t p) a)
    refine congrArg (V c main_v40) (funext fun d => Fin.ext ?_)
    match d with
    | ⟨0, _⟩ => show win1_0.index t (0 : Fin 2) * 1024 + 1 * p.val = 1024 * t.val + p.val; omega
    | ⟨1, _⟩ => show win1_0.index t (1 : Fin 2) * 256 + 1 * a.val = a.val; omega
  · intro p a
    show V c main_v41 (((cfg1.win 1).blk t).view.emb (ix2 p a)) = V c main_v41 (ix2 (rowAt t p) a)
    refine congrArg (V c main_v41) (funext fun d => Fin.ext ?_)
    match d with
    | ⟨0, _⟩ => show win1_1.index t (0 : Fin 2) * 1024 + 1 * p.val = 1024 * t.val + p.val; omega
    | ⟨1, _⟩ => show win1_1.index t (1 : Fin 2) * 256 + 1 * a.val = a.val; omega
  · intro a j
    show V c main_arg4 (((cfg1.win 2).blk t).view.emb (ix2 a j)) = V c main_arg4 (ix2 a j)
    refine congrArg (V c main_arg4) (funext fun d => Fin.ext ?_)
    match d with
    | ⟨0, _⟩ => show win1_2.index t (0 : Fin 2) * 256 + 1 * a.val = a.val; omega
    | ⟨1, _⟩ => show win1_2.index t (1 : Fin 2) * 64 + 1 * j.val = j.val; omega
  · intro a j
    show V c main_arg5 (((cfg1.win 3).blk t).view.emb (ix2 a j)) = V c main_arg5 (ix2 a j)
    refine congrArg (V c main_arg5) (funext fun d => Fin.ext ?_)
    match d with
    | ⟨0, _⟩ => show win1_3.index t (0 : Fin 2) * 256 + 1 * a.val = a.val; omega
    | ⟨1, _⟩ => show win1_3.index t (1 : Fin 2) * 64 + 1 * j.val = j.val; omega
  · intro j
    show V c main_v42 (((cfg1.win 4).blk t).view.emb (ix2 (0 : Fin 1) j)) = V c main_v42 (ix2 (0 : Fin 1) j)
    refine congrArg (V c main_v42) (funext fun d => Fin.ext ?_)
    match d with
    | ⟨0, _⟩ => show win1_4.index t (0 : Fin 2) * 1 + 1 * 0 = 0; omega
    | ⟨1, _⟩ => show win1_4.index t (1 : Fin 2) * 64 + 1 * j.val = j.val; omega
  · show outputOf V c (ix2 (rowAt t p) q) = outputOf V c (((cfg1.win 5).blk t).view.emb (ix2 p q))
    refine congrArg (outputOf V c) (funext fun d => Fin.ext ?_)
    match d with
    | ⟨0, _⟩ => show 1024 * t.val + p.val = win1_5.index t (0 : Fin 2) * 1024 + 1 * p.val; omega
    | ⟨1, _⟩ => show q.val = win1_5.index t (1 : Fin 2) * 64 + 1 * q.val; omega

/-- An index of the output array is in point `t`'s block iff its row is among that block's 1024 rows. -/
theorem mem_block (t : Fin cfg1.N) (i : S4096x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v43).slice (win1_5.rect t)).set ↔ _
  rw [View.set_slice_whole, Rect.mem_set_unit]
  exact Iff.rfl

/-- Every row of the output array lies in the block of the point numbered by its row divided by 1024. -/
theorem covered (i : S4096x64.Idx) :
    ∃ t : Fin cfg1.N, (cfg1.win 5).flush t = true ∧ i ∈ ((cfg1.win 5).blk t).view.set := by
  have hi0 : (i 0).val < 4096 := (i 0).isLt
  have hi1 : (i 1).val < 64 := (i 1).isLt
  let t : Fin cfg1.N := ⟨(i 0).val / 1024, by rw [show cfg1.N = 4 from N_1]; omega⟩
  obtain ⟨-, -, -, -, -, -, -, -, -, -, e50, e51⟩ := index_facts t
  have e50' : win1_5.index t (0 : Fin 2) = (i 0).val / 1024 := e50
  refine ⟨t, flush1_5 t, ?_⟩
  rw [mem_block]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 64 ≤ (i 1).val ∧ (i 1).val < win1_5.index t (1 : Fin 2) * 64 + 64; omega

/-- THE OUTPUT ARRAY after the region: the output layer of the arrays as the region finds them. -/
theorem output_array (c : Dev nD) : (dat1 (F := Ideal) V c).arrAt 5 cfg1.N = outputOf V c :=
  (dat1 (F := Ideal) V c).arrAt_eq_of_cover 5 (outputOf V c) (fun t _ => flushed_eq V c t) (covered)

end Array

end Cert.KernelIdeal.Layer2

end
-- ==== Proof.KernelValue.lean ====
/-
  The idealized kernel program's result.

  The result buffer ends holding the second region's output array. That array is the output layer of what the
  second region finds: the neighbour mean and the root rows of the first region's output array, the second weights
  and the second bias as a row. The first region's output array is in turn the hidden layer of what the first region
  finds: the neighbour mean and the root rows of the launched features, the first weights, the first bias as a row.
  A bias vector recast as a single row reads, at column `j` of that row, the vector at `j`. Put together, the result
  is the two-layer network (`Cert.ReferenceIdeal.Aggregate.network`) of the eleven launched arrays.
-/
import proofs.«106854_j74148315398467_1_alg».proof.Proof.KernelRun
import proofs.«106854_j74148315398467_1_alg».proof.Proof.KernelHost
import proofs.«106854_j74148315398467_1_alg».proof.Proof.Layer1
import proofs.«106854_j74148315398467_1_alg».proof.Proof.Layer2
import proofs.«106854_j74148315398467_1_alg».proof.Proof.Aggregate
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem
open Cert.ReferenceIdeal.Aggregate (neighbourMean1 neighbourMean2 roots1 roots2 hiddenAll network)
open Cert.KernelIdeal.HostValues

/-- The hidden layer of equal arrays is equal. -/
theorem hidden_congr {M K N : Nat} {a a' xt xt' : (⟨2, ![M, K]⟩ : Shape).Idx → EReal} {wl wl' wr wr' : (⟨2, ![K, N]⟩ : Shape).Idx → EReal}
    {b b' : Fin N → EReal} (ha : a = a') (hx : xt = xt') (hl : wl = wl') (hr : wr = wr') (hb : b = b') :
    Cert.Sage.hidden a xt wl wr b = Cert.Sage.hidden a' xt' wl' wr' b' := by
  subst ha hx hl hr hb; rfl

/-- The output layer of equal arrays is equal. -/
theorem output_congr {M K N : Nat} {a a' xt xt' : (⟨2, ![M, K]⟩ : Shape).Idx → EReal} {wl wl' wr wr' : (⟨2, ![K, N]⟩ : Shape).Idx → EReal}
    {b b' : Fin N → EReal} (ha : a = a') (hx : xt = xt') (hl : wl = wl') (hr : wr = wr') (hb : b = b') :
    Cert.Sage.output a xt wl wr b = Cert.Sage.output a' xt' wl' wr' b' := by
  subst ha hx hl hr hb; rfl

variable (m : (ℓ : Loc nD τ sig) → Buf (Elt Ideal) ℓ) (ρ : Dev nD → PrngReg)

/-- The first bias row at column `j` is the launched bias vector at `j`. -/
theorem bias_row1 (c : Dev nD) (j : Fin 256) : V1 m ρ c main_v20 (ix2 (0 : Fin 1) j) = (m ((c : Thread nD τ).loc main_arg3)) (ix1 j) := by
  rw [entry1_bias m ρ c]
  exact shapeCast_a_1a_apply _ _ (0 : Fin 1) j

/-- The second bias row at column `j` is the launched second bias vector at `j`. -/
theorem bias_row2 (c : Dev nD) (j : Fin 64) : V3 m ρ c main_v42 (ix2 (0 : Fin 1) j) = (m ((c : Thread nD τ).loc main_arg6)) (ix1 j) := by
  rw [entry2_bias m ρ c]
  exact shapeCast_a_1a_apply _ _ (0 : Fin 1) j

/-- The first region's output array is the network's hidden array of the launched arrays. -/
theorem hidden_value (c : Dev nD) :
    W2 m ρ c (Proc.devRef .tc main_v21) = hiddenAll (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (W2_arr m ρ c 5).trans ((Cert.KernelIdeal.Layer1.hidden_array (V1 m ρ) c).trans ?_)
  unfold hiddenAll
  exact hidden_congr (entry1_mean m ρ c) (entry1_roots m ρ c) (entry1_wl m ρ c) (entry1_wr m ρ c) (funext fun j => bias_row1 m ρ c j)

/-- The result buffer's final contents are the network of the launched arrays. -/
theorem result_value (c : Dev nD) :
    W4 m ρ c (Proc.devRef .tc main_v43)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Cert.KernelIdeal.Layer2.output_array (V3 m ρ) c).trans ?_)
  unfold network
  exact output_congr
    ((entry2_mean m ρ c).trans (congrArg (fun h => neighbourMean2 (F := Ideal) h (m ((c : Thread nD τ).loc main_arg9)) (m ((c : Thread nD τ).loc main_arg10))) (hidden_value m ρ c)))
    ((entry2_roots m ρ c).trans (congrArg (fun h => roots2 (F := Ideal) h) (hidden_value m ρ c)))
    (entry2_wl m ρ c) (entry2_wr m ρ c) (funext fun j => bias_row2 m ρ c j)

/-- Every weakly fair execution of the idealized kernel program terminates without a fault, its result the network of
    the launched arrays and its arguments unchanged. -/
theorem run : θ_run defs (onTc (τ := τ) (main (F := Ideal))) ⟨m, fun _ => 0, ρ⟩ (fun r => ∀ c : Dev nD,
      r.2.mem ((c.tc : Thread nD τ).loc main_v43)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_value m ρ c), (h c).2⟩)
    (Cert.KernelIdeal.ExitRun.run_at_exit (F := Ideal) m ρ)

end Cert.KernelIdeal.Result

end
-- ==== Proof.RefStages.lean ====
/-
  The reference's stages against the specification.

  The reference computes the hidden array as two matrix products of whole arrays, their sum, the bias broadcast
  down the rows, and a maximum with zero; read at a row and a channel, each product is the sum over the input
  channels, so the stage is the hidden layer (`Cert.Sage.hidden`) of the stage before it. Its last stage takes the
  same affine part of the second layer and then, row by row, the maximum (a fold of `max` from the value of the
  pattern of minus infinity, and once more `max` with that value, which changes nothing), the shifted entries, their
  exponentials' sum from zero, its logarithm, and the difference: the output layer (`Cert.Sage.output`).
  The stages between the layers are the neighbour mean and the root rows, named in the module on aggregation.
-/
import proofs.«106854_j74148315398467_1_alg».proof.Proof.RefRead
import proofs.«106854_j74148315398467_1_alg».proof.Proof.Spec
import proofs.«106854_j74148315398467_1_alg».proof.Proof.Aggregate
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ReadP Cert.ReferenceIdeal.Aggregate
open Idealize.ShloMosaic Idealize.ShloMosaic.TcCoe Idealize.ShloMosaic.ValueIdx

/-! ## The two layers -/

/-- The stage after the first layer's clamp is the hidden layer of the first neighbour mean and the first root rows. -/
theorem hidden_stage (x0 : (⟨S1171456x128, .f32⟩ : BufTy).Contents (Elt Ideal)) (x1 x2 : (⟨S128x256, .f32⟩ : BufTy).Contents (Elt Ideal)) (x3 : (⟨S256, .f32⟩ : BufTy).Contents (Elt Ideal)) (x7 x8 : (⟨S1126400, .i32⟩ : BufTy).Contents (Elt Ideal)) :
    val_main_v26 (F := Ideal) x0 x1 x2 x3 x7 x8
      = Cert.Sage.hidden (M := 45056) (K := 128) (N := 256) (val_main_v19 (F := Ideal) x0 x7 x8) (val_main_v0 (F := Ideal) x0) x1 x2
          (fun j => x3 (ix1 j)) := by
  funext i
  obtain ⟨p, q, rfl⟩ : ∃ (p : Fin 45056) (q : Fin 256), i = ix2 p q := ⟨i 0, i 1, eq_ix2 i⟩
  -- each product, read at row `p` and channel `q`, runs over the input channels `k`: left operand at `(p, k)`, weights at `(k, q)`
  have el : ∀ k : Fin 128, lidx_main_v20 (ix2 p q) k = ix2 p k := fun k =>
    funext fun a => Fin.ext (by match a with | ⟨0, _⟩ => rfl | ⟨1, _⟩ => rfl)
  have er : ∀ k : Fin 128, ridx_main_v20 (ix2 p q) k = ix2 k q := fun k =>
    funext fun a => Fin.ext (by match a with | ⟨0, _⟩ => rfl | ⟨1, _⟩ => rfl)
  have el' : ∀ k : Fin 128, lidx_main_v21 (ix2 p q) k = ix2 p k := fun k =>
    funext fun a => Fin.ext (by match a with | ⟨0, _⟩ => rfl | ⟨1, _⟩ => rfl)
  have er' : ∀ k : Fin 128, ridx_main_v21 (ix2 p q) k = ix2 k q := fun k =>
    funext fun a => Fin.ext (by match a with | ⟨0, _⟩ => rfl | ⟨1, _⟩ => rfl)
  -- the bias, broadcast down the rows, is read at the channel
  have eb : idx_main_v23 (idx_main_v24 (ix2 p q)) = ix1 q :=
    funext fun a => Fin.ext (by match a with | ⟨0, _⟩ => rfl)
  rw [val_main_v26_apply, val_main_v25_apply, val_main_v22_apply, val_main_v20_apply, val_main_v21_apply,
    val_main_v24_apply, val_main_v23_apply, val_main_call0_v0_apply, val_main_call0_cst_apply]
  unfold Cert.Sage.hidden Cert.Sage.combine
  simp only [el, er, el', er', eb, Ideal.maximumf_def, Ideal.addf_def, Ideal.ofBits_def, Ideal.ofBits_zero_f32]

/-- The last stage is the output layer of the second neighbour mean and the second root rows. -/
theorem output_stage (x0 : (⟨S1171456x128, .f32⟩ : BufTy).Contents (Elt Ideal)) (x1 x2 : (⟨S128x256, .f32⟩ : BufTy).Contents (Elt Ideal)) (x3 : (⟨S256, .f32⟩ : BufTy).Contents (Elt Ideal)) (x4 x5 : (⟨S256x64, .f32⟩ : BufTy).Contents (Elt Ideal)) (x6 : (⟨S64, .f32⟩ : BufTy).Contents (Elt Ideal)) (x7 x8 : (⟨S1126400, .i32⟩ : BufTy).Contents (Elt Ideal)) (x9 x10 : (⟨S40960, .i32⟩ : BufTy).Contents (Elt Ideal)) :
    val_main_v53 (F := Ideal) x0 x1 x2 x3 x4 x5 x6 x7 x8 x9 x10
      = Cert.Sage.output (M := 4096) (K := 256) (N := 64) (val_main_v46 (F := Ideal) x0 x1 x2 x3 x7 x8 x9 x10)
          (val_main_v27 (F := Ideal) x0 x1 x2 x3 x7 x8) x4 x5 (fun j => x6 (ix1 j)) := by
  -- the affine part of the second layer at row `p` and channel `q`
  have hA : ∀ (p : Fin 4096) (q : Fin 64), val_main_v52 (F := Ideal) x0 x1 x2 x3 x4 x5 x6 x7 x8 x9 x10 (ix2 p q) = (Cert.Sage.combine (M := 4096) (K := 256) (N := 64) (val_main_v46 (F := Ideal) x0 x1 x2 x3 x7 x8 x9 x10) (val_main_v27 (F := Ideal) x0 x1 x2 x3 x7 x8) x4 x5 (fun j => x6 (ix1 j))) p q := by
    intro p q
    have el : ∀ k : Fin 256, lidx_main_v47 (ix2 p q) k = ix2 p k := fun k =>
      funext fun a => Fin.ext (by match a with | ⟨0, _⟩ => rfl | ⟨1, _⟩ => rfl)
    have er : ∀ k : Fin 256, ridx_main_v47 (ix2 p q) k = ix2 k q := fun k =>
      funext fun a => Fin.ext (by match a with | ⟨0, _⟩ => rfl | ⟨1, _⟩ => rfl)
    have el' : ∀ k : Fin 256, lidx_main_v48 (ix2 p q) k = ix2 p k := fun k =>
      funext fun a => Fin.ext (by match a with | ⟨0, _⟩ => rfl | ⟨1, _⟩ => rfl)
    have er' : ∀ k : Fin 256, ridx_main_v48 (ix2 p q) k = ix2 k q := fun k =>
      funext fun a => Fin.ext (by match a with | ⟨0, _⟩ => rfl | ⟨1, _⟩ => rfl)
    have eb : idx_main_v50 (idx_main_v51 (ix2 p q)) = ix1 q :=
      funext fun a => Fin.ext (by match a with | ⟨0, _⟩ => rfl)
    rw [val_main_v52_apply, val_main_v49_apply, val_main_v47_apply, val_main_v48_apply, val_main_v51_apply,
      val_main_v50_apply]
    unfold Cert.Sage.combine
    simp only [el, er, el', er', eb, Ideal.addf_def]
  -- the row maximum: the fold of `max` over the channels of row `p` from the value of minus infinity's pattern,
  -- and `max` with that value once more, which changes nothing
  have hM : ∀ p : Fin 4096, val_main_call1_v2 (F := Ideal) x0 x1 x2 x3 x4 x5 x6 x7 x8 x9 x10 (ix1 p) = Cert.Sage.rowMax (Cert.Sage.combine (M := 4096) (K := 256) (N := 64) (val_main_v46 (F := Ideal) x0 x1 x2 x3 x7 x8 x9 x10) (val_main_v27 (F := Ideal) x0 x1 x2 x3 x7 x8) x4 x5 (fun j => x6 (ix1 j))) p := by
    intro p
    have h : S4096x64.Reduces [1] S4096 := by decide
    have e : (val_main_v52 (F := Ideal) x0 x1 x2 x3 x4 x5 x6 x7 x8 x9 x10) ∘ h.lift (ix1 p) = (Cert.Sage.combine (M := 4096) (K := 256) (N := 64) (val_main_v46 (F := Ideal) x0 x1 x2 x3 x7 x8 x9 x10) (val_main_v27 (F := Ideal) x0 x1 x2 x3 x7 x8) x4 x5 (fun j => x6 (ix1 j))) p := funext fun k =>
      (congrArg (val_main_v52 (F := Ideal) x0 x1 x2 x3 x4 x5 x6 x7 x8 x9 x10)
        (funext fun a => Fin.ext (by match a with | ⟨0, _⟩ => rfl | ⟨1, _⟩ => rfl))).trans (hA p k)
    rw [val_main_call1_v2_apply, val_main_call1_v1_apply, val_main_call1_cst_0_apply]
    unfold val_main_call1_v0
    rw [Host.reduce_eq_fold_single FloatOps.maximumf _ _ reducesTo_S4096x64_S4096_d1 h h_S_ (ix1 p), e,
      val_main_call1_cst_apply]
    exact Cert.Sage.max_floor_rowMax _ p
  -- the shifted entry: the affine part less its row's maximum
  have hS : ∀ (p : Fin 4096) (q : Fin 64), val_main_call1_v5 (F := Ideal) x0 x1 x2 x3 x4 x5 x6 x7 x8 x9 x10 (ix2 p q)
      = (Cert.Sage.combine (M := 4096) (K := 256) (N := 64) (val_main_v46 (F := Ideal) x0 x1 x2 x3 x7 x8 x9 x10) (val_main_v27 (F := Ideal) x0 x1 x2 x3 x7 x8) x4 x5 (fun j => x6 (ix1 j))) p q - Cert.Sage.rowMax (Cert.Sage.combine (M := 4096) (K := 256) (N := 64) (val_main_v46 (F := Ideal) x0 x1 x2 x3 x7 x8 x9 x10) (val_main_v27 (F := Ideal) x0 x1 x2 x3 x7 x8) x4 x5 (fun j => x6 (ix1 j))) p := by
    intro p q
    have e3 : idx_main_call1_v3 (idx_main_call1_v4 (ix2 p q)) = ix1 p :=
      funext fun a => Fin.ext (by match a with | ⟨0, _⟩ => rfl)
    rw [val_main_call1_v5_apply, val_main_call1_v4_apply, val_main_call1_v3_apply, e3, hM, hA]
    rfl
  funext i
  obtain ⟨p, q, rfl⟩ : ∃ (p : Fin 4096) (q : Fin 64), i = ix2 p q := ⟨i 0, i 1, eq_ix2 i⟩
  -- the sum of exponentials along row `p` runs over the channels `k`, from zero
  have e7 : ∀ k : Fin 64, idx_main_call1_v7 (idx_main_call1_v8 (idx_main_call1_v10 (ix2 p q))) k = ix2 p k := fun k =>
    funext fun a => Fin.ext (by match a with | ⟨0, _⟩ => rfl | ⟨1, _⟩ => rfl)
  rw [val_main_v53_apply, val_main_call1_v10_apply, val_main_call1_v9_apply, val_main_call1_v8_apply,
    val_main_call1_v7_apply, val_main_call1_cst_1_apply, hS]
  unfold Cert.Sage.output Cert.Sage.logSoftmax
  simp only [e7, val_main_call1_v6_apply, hS, Ideal.subf_def, Ideal.hostUnary_exp_def, Ideal.hostUnary_log_def,
    Ideal.ofBits_def, Ideal.ofBits_zero_f32, zero_add]

/-! ## The stages between the layers are the named aggregation steps -/

theorem mean1_stage (x0 : (⟨S1171456x128, .f32⟩ : BufTy).Contents (Elt Ideal)) (x7 x8 : (⟨S1126400, .i32⟩ : BufTy).Contents (Elt Ideal)) : val_main_v19 (F := Ideal) x0 x7 x8 = neighbourMean1 (F := Ideal) x0 x7 x8 := rfl

theorem roots1_stage (x0 : (⟨S1171456x128, .f32⟩ : BufTy).Contents (Elt Ideal)) : val_main_v0 (F := Ideal) x0 = roots1 (F := Ideal) x0 := rfl

theorem mean2_stage (x0 : (⟨S1171456x128, .f32⟩ : BufTy).Contents (Elt Ideal)) (x1 x2 : (⟨S128x256, .f32⟩ : BufTy).Contents (Elt Ideal)) (x3 : (⟨S256, .f32⟩ : BufTy).Contents (Elt Ideal)) (x7 x8 : (⟨S1126400, .i32⟩ : BufTy).Contents (Elt Ideal)) (x9 x10 : (⟨S40960, .i32⟩ : BufTy).Contents (Elt Ideal)) :
    val_main_v46 (F := Ideal) x0 x1 x2 x3 x7 x8 x9 x10 = neighbourMean2 (F := Ideal) (val_main_v26 (F := Ideal) x0 x1 x2 x3 x7 x8) x9 x10 := rfl

theorem roots2_stage (x0 : (⟨S1171456x128, .f32⟩ : BufTy).Contents (Elt Ideal)) (x1 x2 : (⟨S128x256, .f32⟩ : BufTy).Contents (Elt Ideal)) (x3 : (⟨S256, .f32⟩ : BufTy).Contents (Elt Ideal)) (x7 x8 : (⟨S1126400, .i32⟩ : BufTy).Contents (Elt Ideal)) :
    val_main_v27 (F := Ideal) x0 x1 x2 x3 x7 x8 = roots2 (F := Ideal) (val_main_v26 (F := Ideal) x0 x1 x2 x3 x7 x8) := rfl

/-! ## The reference's result is the network -/

/-- The reference's last stage, as a function of @main's arguments, is the two-layer network. -/
theorem reference_result (x0 : (⟨S1171456x128, .f32⟩ : BufTy).Contents (Elt Ideal)) (x1 x2 : (⟨S128x256, .f32⟩ : BufTy).Contents (Elt Ideal)) (x3 : (⟨S256, .f32⟩ : BufTy).Contents (Elt Ideal)) (x4 x5 : (⟨S256x64, .f32⟩ : BufTy).Contents (Elt Ideal)) (x6 : (⟨S64, .f32⟩ : BufTy).Contents (Elt Ideal)) (x7 x8 : (⟨S1126400, .i32⟩ : BufTy).Contents (Elt Ideal)) (x9 x10 : (⟨S40960, .i32⟩ : BufTy).Contents (Elt Ideal)) :
    val_main_v53 (F := Ideal) x0 x1 x2 x3 x4 x5 x6 x7 x8 x9 x10 = network x0 x1 x2 x3 x4 x5 x6 x7 x8 x9 x10 := by
  rw [output_stage, mean2_stage, roots2_stage, hidden_stage, mean1_stage, roots1_stage]
  rfl

end Cert.ReferenceIdeal.Stages

end
-- ==== Proof.lean ====
/-
  Two layers of neighbour-mean graph convolution: the kernel program against its reference.

  The kernel program forms each layer's aggregated input (the mean of every target's neighbour rows) and its root
  rows with host operations, exactly as the reference does, and leaves the dense part of each layer to a kernel
  tiled over blocks of target rows: the first computes the hidden layer `max (agg · Wl + x · Wr + b) 0`, the second
  the row-wise logarithm of the softmax of `agg · Wl + x · Wr + b`. The reference computes the same two layers with
  whole-array matrix products. On the extended reals a product into a zero accumulator and the host's product are
  the same sum over the contracted channels, a change of float format is the identity, a row's maximum does not
  depend on the order it is folded in, and one more `max` with the value the fold started from changes nothing.
  So both programs end at ONE function of the eleven argument arrays, the network of
  `Cert.ReferenceIdeal.Aggregate.network`: the kernel program by reading each region's output array block by
  block (the layers' modules) under the host operations around them, the reference by reading its stages one at a
  time. The law needs no finiteness: only the commutativity and associativity of `max`, and equal sums of equal terms.

  The frames of the two kernel programs are the generated ones; the reference's frame is its run with the result
  dropped. The idealization rewrote no operation, so there is nothing to preserve beyond the program's own text.
-/
import proofs.«106854_j74148315398467_1_alg».proof.Defs
import proofs.«106854_j74148315398467_1_alg».proof.Proof.Gen.Kernel
import proofs.«106854_j74148315398467_1_alg».proof.Proof.Gen.Kernel.Frame
import proofs.«106854_j74148315398467_1_alg».proof.Proof.Gen.KernelIdeal
import proofs.«106854_j74148315398467_1_alg».proof.Proof.Gen.KernelIdeal.Frame
import proofs.«106854_j74148315398467_1_alg».proof.Proof.Gen.ReferenceIdeal
import proofs.«106854_j74148315398467_1_alg».proof.Proof.Gen.Pre_finite_inputs
import proofs.«106854_j74148315398467_1_alg».proof.Proof.KernelValue
import proofs.«106854_j74148315398467_1_alg».proof.Proof.RefStages
import Idealize.ShloMosaic.Adequacy
import Idealize.ShloMosaic.Init

noncomputable section

namespace Cert.Proof

open Idealize.ShloMosaic Idealize.ShloMosaic.TcCoe Idealize.SL.Sem
open Cert.ReferenceIdeal.Aggregate (network)

/-- Every weakly fair execution of the reference terminates without a fault, its result the network of the launched
    arrays and its arguments unchanged. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v53)
          = network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run Cert.ReferenceIdeal.defs _ _).mono
    (fun _ h c => ⟨(h c).1.trans ((Cert.ReferenceIdeal.ReadP.val_main_v53_eq (F := Ideal) m' c).trans
        (Cert.ReferenceIdeal.Stages.reference_result _ _ _ _ _ _ _ _ _ _ _)), (h c).2⟩)
    (Cert.ReferenceIdeal.ValueP.run (F := Ideal) m' ρ')

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (reference_run m ρ)

/-- The ideal pass rewrote no operation of the kernel program. -/
theorem preserves : Cert.preserves_Kernel_KernelIdeal := trivial

/-- From memories agreeing on the arguments both programs end at the network of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩) (reference_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
